-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x27687 : Shape := ⟨2, ![4096, 27687]⟩
abbrev S71000x2 : Shape := ⟨2, ![71000, 2]⟩
abbrev S71000 : Shape := ⟨1, ![71000]⟩
abbrev S_ : Shape := ⟨0, ![]⟩

class Facts : Prop where
  bcast_S_S4096x27687 : S_.BroadcastsInDim S4096x27687 (![] : Fin 0 → Fin S4096x27687.rank)
  reducesTo_S4096x27687_S_d0_1 : S4096x27687.ReducesTo [0, 1] S_
  h_S_ : 0 < S_.numel
  bcast_S_S71000 : S_.BroadcastsInDim S71000 (![] : Fin 0 → Fin S71000.rank)
  reducesTo_S71000_S_d0 : S71000.ReducesTo [0] S_

variable [Facts]

def fn {F : FTy → Type} [FloatOps F] (main_arg0 : FVec F S4096x27687 .f32) (main_arg1 : IVec S71000x2 32) (main_arg2 : FVec F S71000 .f32) : IVec S_ 1 :=
  let main_v0 : FVec F S4096x27687 .f32 := Host.absf main_arg0
  let main_cst : FVec F S_ .f32 := constant S_ .f32 0x7F800000#32
  let main_v1 : FVec F S4096x27687 .f32 := broadcastInDim S4096x27687 ![] bcast_S_S4096x27687 main_cst
  let main_v2 : IVec S4096x27687 1 := cmpf .olt main_v0 main_v1
  let main_c : IVec S_ 1 := constantI S_ 1 1#1
  let main_v3 : IVec S_ 1 := (fun x v => Host.reduce IntOp.andi x v reducesTo_S4096x27687_S_d0_1 h_S_) main_v2 main_c
  let main_v4 : FVec F S71000 .f32 := Host.absf main_arg2
  let main_cst_0 : FVec F S_ .f32 := constant S_ .f32 0x7F800000#32
  let main_v5 : FVec F S71000 .f32 := broadcastInDim S71000 ![] bcast_S_S71000 main_cst_0
  let main_v6 : IVec S71000 1 := cmpf .olt main_v4 main_v5
  let main_c_1 : IVec S_ 1 := constantI S_ 1 1#1
  let main_v7 : IVec S_ 1 := (fun x v => Host.reduce IntOp.andi x v reducesTo_S71000_S_d0 h_S_) main_v6 main_c_1
  let main_v8 : IVec S_ 1 := andi main_v3 main_v7
  main_v8
-- ==== Kernel.lean ====
abbrev S4096x27687 : Shape := ⟨2, ![4096, 27687]⟩
abbrev S71000x2 : Shape := ⟨2, ![71000, 2]⟩
abbrev S71000 : Shape := ⟨1, ![71000]⟩
abbrev S71000x1 : Shape := ⟨2, ![71000, 1]⟩
abbrev S_ : Shape := ⟨0, ![]⟩
abbrev S27687x1387 : Shape := ⟨2, ![27687, 1387]⟩
abbrev S4096x28672 : Shape := ⟨2, ![4096, 28672]⟩
abbrev S28672x1408 : Shape := ⟨2, ![28672, 1408]⟩
abbrev S4096x1408 : Shape := ⟨2, ![4096, 1408]⟩
abbrev S2048x1024 : Shape := ⟨2, ![2048, 1024]⟩
abbrev S1024x1408 : Shape := ⟨2, ![1024, 1408]⟩
abbrev S2048x1408 : Shape := ⟨2, ![2048, 1408]⟩
abbrev S4096x1387 : Shape := ⟨2, ![4096, 1387]⟩

abbrev nBuf : Space → Nat
  | .hbm => 37
  | .vmem => 6
  | .smem => 0
  | _ => 0

abbrev bufTy : (tb : Table) → Fin (tcTables nBuf tb) → BufTy
  | .hbm, ⟨0, _⟩ => ⟨S4096x27687, .f32⟩
  | .hbm, ⟨1, _⟩ => ⟨S71000x2, .i32⟩
  | .hbm, ⟨2, _⟩ => ⟨S71000, .f32⟩
  | .hbm, ⟨3, _⟩ => ⟨S71000x1, .i32⟩
  | .hbm, ⟨4, _⟩ => ⟨S71000, .i32⟩
  | .hbm, ⟨5, _⟩ => ⟨S71000x1, .i32⟩
  | .hbm, ⟨6, _⟩ => ⟨S71000, .i32⟩
  | .hbm, ⟨7, _⟩ => ⟨S_, .f32⟩
  | .hbm, ⟨8, _⟩ => ⟨S27687x1387, .f32⟩
  | .hbm, ⟨9, _⟩ => ⟨S_, .i32⟩
  | .hbm, ⟨10, _⟩ => ⟨S71000, .i32⟩
  | .hbm, ⟨11, _⟩ => ⟨S71000, .i1⟩
  | .hbm, ⟨12, _⟩ => ⟨S_, .i32⟩
  | .hbm, ⟨13, _⟩ => ⟨S71000, .i32⟩
  | .hbm, ⟨14, _⟩ => ⟨S71000, .i32⟩
  | .hbm, ⟨15, _⟩ => ⟨S71000, .i32⟩
  | .hbm, ⟨16, _⟩ => ⟨S_, .i32⟩
  | .hbm, ⟨17, _⟩ => ⟨S71000, .i32⟩
  | .hbm, ⟨18, _⟩ => ⟨S71000, .i1⟩
  | .hbm, ⟨19, _⟩ => ⟨S_, .i32⟩
  | .hbm, ⟨20, _⟩ => ⟨S71000, .i32⟩
  | .hbm, ⟨21, _⟩ => ⟨S71000, .i32⟩
  | .hbm, ⟨22, _⟩ => ⟨S71000, .i32⟩
  | .hbm, ⟨23, _⟩ => ⟨S71000x1, .i32⟩
  | .hbm, ⟨24, _⟩ => ⟨S71000x1, .i32⟩
  | .hbm, ⟨25, _⟩ => ⟨S71000x2, .i32⟩
  | .hbm, ⟨26, _⟩ => ⟨S27687x1387, .f32⟩
  | .hbm, ⟨27, _⟩ => ⟨S_, .i32⟩
  | .hbm, ⟨28, _⟩ => ⟨S_, .f32⟩
  | .hbm, ⟨29, _⟩ => ⟨S4096x28672, .f32⟩
  | .hbm, ⟨30, _⟩ => ⟨S_, .i32⟩
  | .hbm, ⟨31, _⟩ => ⟨S_, .f32⟩
  | .hbm, ⟨32, _⟩ => ⟨S28672x1408, .f32⟩
  | .hbm, ⟨33, _⟩ => ⟨S4096x28672, .bf16⟩
  | .hbm, ⟨34, _⟩ => ⟨S28672x1408, .bf16⟩
  | .hbm, ⟨35, _⟩ => ⟨S4096x1408, .f32⟩
  | .hbm, ⟨36, _⟩ => ⟨S4096x1387, .f32⟩
  | .local _ .vmem, ⟨0, _⟩ => ⟨S2048x1024, .bf16⟩
  | .local _ .vmem, ⟨1, _⟩ => ⟨S2048x1024, .bf16⟩
  | .local _ .vmem, ⟨2, _⟩ => ⟨S1024x1408, .bf16⟩
  | .local _ .vmem, ⟨3, _⟩ => ⟨S1024x1408, .bf16⟩
  | .local _ .vmem, ⟨4, _⟩ => ⟨S2048x1408, .f32⟩
  | .local _ .vmem, ⟨5, _⟩ => ⟨S2048x1408, .f32⟩
  | _, _ => ⟨S4096x27687, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_c : Ref sig .tc := ⟨.hbm, 9, rfl⟩
abbrev main_v5 : Ref sig .tc := ⟨.hbm, 10, rfl⟩
abbrev main_v6 : Ref sig .tc := ⟨.hbm, 11, rfl⟩
abbrev main_c_0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_c_1 : Ref sig .tc := ⟨.hbm, 16, rfl⟩
abbrev main_v10 : Ref sig .tc := ⟨.hbm, 17, rfl⟩
abbrev main_v11 : Ref sig .tc := ⟨.hbm, 18, rfl⟩
abbrev main_c_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_c_3 : Ref sig .tc := ⟨.hbm, 27, rfl⟩
abbrev main_call0_v0 : Ref sig .tc := ⟨.hbm, 28, rfl⟩
abbrev main_v19 : Ref sig .tc := ⟨.hbm, 29, rfl⟩
abbrev main_c_4 : Ref sig .tc := ⟨.hbm, 30, rfl⟩
abbrev main_call1_v0 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 28], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  slices_S71000x2_S71000x1_0_0 : S71000x2.Slices ![0, 0] S71000x1
  shapeCasts_S71000x1_S71000 : S71000x1.ShapeCasts S71000
  slices_S71000x2_S71000x1_0_1 : S71000x2.Slices ![0, 1] S71000x1
  bcast_S_S27687x1387 : S_.BroadcastsInDim S27687x1387 (![] : Fin 0 → Fin S27687x1387.rank)
  bcast_S_S71000 : S_.BroadcastsInDim S71000 (![] : Fin 0 → Fin S71000.rank)
  bcast_S71000_S71000x1_0 : S71000.BroadcastsInDim S71000x1 (![0] : Fin 1 → Fin S71000x1.rank)
  concatenates_S71000x1_S71000x1_S71000x2_d1 : Shape.Concatenates [S71000x1, S71000x1] S71000x2 1
  pads_S4096x27687_S4096x28672_000_09850 : S4096x27687.Pads (![0, 0] : Fin 2 → Nat) ![0, 985] ![0, 0] S4096x28672
  h_S_ : 0 < S_.numel
  pads_S27687x1387_S28672x1408_09850_0210 : S27687x1387.Pads (![0, 0] : Fin 2 → Nat) ![985, 21] ![0, 0] S28672x1408
  bitsLt_bf16_f32 : FTy.bits .bf16 < FTy.bits .f32
  inb_S2048x1408_S2048x1408_0_0 : ∀ a, (![0, 0] : Fin 2 → Nat) a + S2048x1408.size a ≤ S2048x1408.size a
  h_S2048x1408 : 0 < S2048x1408.numel
  shapeCasts_S2048x1408_S2048x1408 : S2048x1408.ShapeCasts S2048x1408
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S1024x1408_S1024x1408_0_0 : ∀ a, (![0, 0] : Fin 2 → Nat) a + S1024x1408.size a ≤ S1024x1408.size a
  h_S1024x1408 : 0 < S1024x1408.numel
  shapeCasts_S1024x1408_S1024x1408 : S1024x1408.ShapeCasts S1024x1408
  slices_S4096x1408_S4096x1387_0_0 : S4096x1408.Slices ![0, 0] S4096x1387
  scatter_S27687x1387_S71000x2_S71000_n_01_01_1_wf : ScatterDims.WF S27687x1387 S71000x2 S71000 [] [0, 1] [0, 1] 1
  dot_S2048x1024_S1024x1408_S2048x1408_1_0_0_1_n_n_wf : DotDims.WF S2048x1024 S1024x1408 S2048x1408 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x1024.size a ≤ S4096x28672.size a
  hwx0_0 : ∀ i : grid0.Coords, EltTy.bits .bf16 = 32 ∨ (Rect.block (s := S4096x28672) S2048x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1408.size a ≤ S28672x1408.size a
  hwx0_1 : ∀ i : grid0.Coords, EltTy.bits .bf16 = 32 ∨ (Rect.block (s := S28672x1408) S1024x1408.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x1408.size a ≤ S4096x1408.size a
  hwx0_2 : ∀ i : grid0.Coords, EltTy.bits .f32 = 32 ∨ (Rect.block (s := S4096x1408) S2048x1408.size (cc0_transform_2 i) (hinb0_2 i)).WholeWords (EltTy.packing .f32)

variable [Facts₀]

def scatter_S27687x1387_S71000x2_S71000_n_01_01_1 : ScatterDims S27687x1387 S71000x2 S71000 where
  updateWindowDims := []
  insertedWindowDims := [0, 1]
  scatterDimsToOperandDims := [0, 1]
  indexVectorDim := 1
  wf := scatter_S27687x1387_S71000x2_S71000_n_01_01_1_wf
def dot_S2048x1024_S1024x1408_S2048x1408_1_0_0_1_n_n : DotDims S2048x1024 S1024x1408 S2048x1408 where
  lhsContracting := [1]
  rhsContracting := [0]
  lhsNonContracting := [0]
  rhsNonContracting := [1]
  lhsBatch := []
  rhsBatch := []
  wf := dot_S2048x1024_S1024x1408_S2048x1408_1_0_0_1_n_n_wf

abbrev win0_0 : Pipeline.Window sig grid0 :=
  Pipeline.Window.ofSpec (Memref.whole main_v21) S2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v22) S1024x1408.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v23) S2048x1408.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4096x27687 : Shape := ⟨2, ![4096, 27687]⟩
abbrev S71000x2 : Shape := ⟨2, ![71000, 2]⟩
abbrev S71000 : Shape := ⟨1, ![71000]⟩
abbrev S_ : Shape := ⟨0, ![]⟩
abbrev S27687x1387 : Shape := ⟨2, ![27687, 1387]⟩
abbrev S71000x1 : Shape := ⟨2, ![71000, 1]⟩
abbrev S4096x1387 : Shape := ⟨2, ![4096, 1387]⟩

abbrev nBuf : Space → Nat
  | .hbm => 28
  | .vmem => 0
  | .smem => 0
  | _ => 0

abbrev bufTy : (tb : Table) → Fin (tcTables nBuf tb) → BufTy
  | .hbm, ⟨0, _⟩ => ⟨S4096x27687, .f32⟩
  | .hbm, ⟨1, _⟩ => ⟨S71000x2, .i32⟩
  | .hbm, ⟨2, _⟩ => ⟨S71000, .f32⟩
  | .hbm, ⟨3, _⟩ => ⟨S_, .f32⟩
  | .hbm, ⟨4, _⟩ => ⟨S27687x1387, .f32⟩
  | .hbm, ⟨5, _⟩ => ⟨S71000x1, .i32⟩
  | .hbm, ⟨6, _⟩ => ⟨S71000, .i32⟩
  | .hbm, ⟨7, _⟩ => ⟨S71000x1, .i32⟩
  | .hbm, ⟨8, _⟩ => ⟨S71000, .i32⟩
  | .hbm, ⟨9, _⟩ => ⟨S_, .i32⟩
  | .hbm, ⟨10, _⟩ => ⟨S71000, .i32⟩
  | .hbm, ⟨11, _⟩ => ⟨S71000, .i1⟩
  | .hbm, ⟨12, _⟩ => ⟨S_, .i32⟩
  | .hbm, ⟨13, _⟩ => ⟨S71000, .i32⟩
  | .hbm, ⟨14, _⟩ => ⟨S71000, .i32⟩
  | .hbm, ⟨15, _⟩ => ⟨S71000, .i32⟩
  | .hbm, ⟨16, _⟩ => ⟨S_, .i32⟩
  | .hbm, ⟨17, _⟩ => ⟨S71000, .i32⟩
  | .hbm, ⟨18, _⟩ => ⟨S71000, .i1⟩
  | .hbm, ⟨19, _⟩ => ⟨S_, .i32⟩
  | .hbm, ⟨20, _⟩ => ⟨S71000, .i32⟩
  | .hbm, ⟨21, _⟩ => ⟨S71000, .i32⟩
  | .hbm, ⟨22, _⟩ => ⟨S71000, .i32⟩
  | .hbm, ⟨23, _⟩ => ⟨S71000x1, .i32⟩
  | .hbm, ⟨24, _⟩ => ⟨S71000x1, .i32⟩
  | .hbm, ⟨25, _⟩ => ⟨S71000x2, .i32⟩
  | .hbm, ⟨26, _⟩ => ⟨S27687x1387, .f32⟩
  | .hbm, ⟨27, _⟩ => ⟨S4096x1387, .f32⟩
  | _, _ => ⟨S4096x27687, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_c : Ref sig .tc := ⟨.hbm, 9, rfl⟩
abbrev main_v5 : Ref sig .tc := ⟨.hbm, 10, rfl⟩
abbrev main_v6 : Ref sig .tc := ⟨.hbm, 11, rfl⟩
abbrev main_c_0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_c_1 : Ref sig .tc := ⟨.hbm, 16, rfl⟩
abbrev main_v10 : Ref sig .tc := ⟨.hbm, 17, rfl⟩
abbrev main_v11 : Ref sig .tc := ⟨.hbm, 18, rfl⟩
abbrev main_c_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩

abbrev nD : Nat := 1
abbrev τ : Topo := Topo.v7x

variable {F : FTy → Type} [FloatOps F]

class Facts₀ : Prop where
  bcast_S_S27687x1387 : S_.BroadcastsInDim S27687x1387 (![] : Fin 0 → Fin S27687x1387.rank)
  slices_S71000x2_S71000x1_0_0 : S71000x2.Slices ![0, 0] S71000x1
  shapeCasts_S71000x1_S71000 : S71000x1.ShapeCasts S71000
  slices_S71000x2_S71000x1_0_1 : S71000x2.Slices ![0, 1] S71000x1
  bcast_S_S71000 : S_.BroadcastsInDim S71000 (![] : Fin 0 → Fin S71000.rank)
  bcast_S71000_S71000x1_0 : S71000.BroadcastsInDim S71000x1 (![0] : Fin 1 → Fin S71000x1.rank)
  concatenates_S71000x1_S71000x1_S71000x2_d1 : Shape.Concatenates [S71000x1, S71000x1] S71000x2 1
  scatter_S27687x1387_S71000x2_S71000_n_01_01_1_wf : ScatterDims.WF S27687x1387 S71000x2 S71000 [] [0, 1] [0, 1] 1
  dot_S4096x27687_S27687x1387_S4096x1387_1_0_0_1_n_n_wf : DotDims.WF S4096x27687 S27687x1387 S4096x1387 [1] [0] [0] [1] [] []

variable [Facts₀]

def scatter_S27687x1387_S71000x2_S71000_n_01_01_1 : ScatterDims S27687x1387 S71000x2 S71000 where
  updateWindowDims := []
  insertedWindowDims := [0, 1]
  scatterDimsToOperandDims := [0, 1]
  indexVectorDim := 1
  wf := scatter_S27687x1387_S71000x2_S71000_n_01_01_1_wf
def dot_S4096x27687_S27687x1387_S4096x1387_1_0_0_1_n_n : DotDims S4096x27687 S27687x1387 S4096x1387 where
  lhsContracting := [1]
  rhsContracting := [0]
  lhsNonContracting := [0]
  rhsNonContracting := [1]
  lhsBatch := []
  rhsBatch := []
  wf := dot_S4096x27687_S27687x1387_S4096x1387_1_0_0_1_n_n_wf

class Facts : Prop extends Facts₀ where

variable [Facts]
-- ==== Proof.Pieces.lean ====
/-
  What one run of the kernel body leaves in the output block, as a value.

  At the first step of a row block (contraction block 0) the body stores the zero block, reads it back and stores
  `zero + a·b`; at every later step it reads the block the step before left and stores `carried + a·b`. Each run ends
  with one store covering the whole block, so the block's contents are that store's value, its loads reading the whole
  input blocks and (first step) the zero block just stored.
-/
import proofs.«175574_j73650099192114_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Pieces

open Cert.KernelIdeal Cert.KernelIdeal.Gen

variable {F : FTy → Type} [FloatOps F]

theorem hz : (![0, 0] : Fin 2 → Nat) = fun _ => 0 := funext fun a => by fin_cases a <;> rfl

/-- A later step: the carried block `xo` plus the product of the two input blocks. -/
theorem out_B (c : Dev nD) (i : grid0.Coords) (arg2 : Memref sig .tc .vmem S2048x1024 .bf16) (harg2 : arg2.IsWhole)
    (arg3 : Memref sig .tc .vmem S1024x1408 .bf16) (harg3 : arg3.IsWhole) (arg4 : Memref sig .tc .vmem S2048x1408 .f32) (harg4 : arg4.IsWhole)
    (hc0 : ¬cond0_0 i) (x0 : Vec F S2048x1024 .bf16) (x1 : Vec F S1024x1408 .bf16) (xo2 : Vec F S2048x1408 .f32) :
    out0_B_2 c i arg2 harg2 arg3 harg3 arg4 harg4 hc0 x0 x1 xo2 = k0_pay2 xo2 x0 x1 := by
  unfold out0_B_2
  rw [View.read_writes_eq_canon _ _ _ (cover0_B_2 c i arg2 harg2 arg3 harg3 arg4 harg4 hc0 x0 x1 xo2)]
  unfold kernelRun0_B
  dsimp only
  sl_unfold_words
  rw [View.canon_unit_zero hz]
  simp only [View.readAt_eq_ld, harg2.read_unread, harg3.read_unread, harg4.read_unread, View.ld_unit_zero (S := S2048x1408) hz,
    View.ld_unit_zero (S := S2048x1024) hz, View.ld_unit_zero (S := S1024x1408) hz]

/-- The first step: the zero block plus the product of the two input blocks. -/
theorem out_A (c : Dev nD) (i : grid0.Coords) (arg2 : Memref sig .tc .vmem S2048x1024 .bf16) (harg2 : arg2.IsWhole)
    (arg3 : Memref sig .tc .vmem S1024x1408 .bf16) (harg3 : arg3.IsWhole) (arg4 : Memref sig .tc .vmem S2048x1408 .f32) (harg4 : arg4.IsWhole)
    (hc0 : cond0_0 i) (x0 : Vec F S2048x1024 .bf16) (x1 : Vec F S1024x1408 .bf16) :
    out0_A_2 c i arg2 harg2 arg3 harg3 arg4 harg4 hc0 x0 x1 = k0_pay2 (k0_pay1 (F := F)) x0 x1 := by
  unfold out0_A_2
  rw [View.read_writes_eq_canon _ _ _ (cover0_A_2 c i arg2 harg2 arg3 harg3 arg4 harg4 hc0 x0 x1)]
  unfold kernelRun0_A
  dsimp only
  sl_unfold_words
  rw [View.canon_cons_unit_zero (S := S2048x1408) hz, View.readCov_unit_zero (S := S2048x1408) _ hz]
  simp only [View.readAt_eq_ld, harg2.read_unread, harg3.read_unread, View.ld_unit_zero (S := S2048x1408) hz,
    View.ld_unit_zero (S := S2048x1024) hz, View.ld_unit_zero (S := S1024x1408) hz]

end Cert.KernelIdeal.Pieces

end
-- ==== Proof.BlockSum.lean ====
/-
  Sums over a contraction axis cut into consecutive blocks, over any commutative monoid (used at the extended reals).

  A matrix product accumulated block by block along the contraction axis is the product over the whole axis: a sum over
  the first `B * (n + 1)` naturals is the sum over the first `B * n` plus the sum over block `n`, and a sum whose
  terms vanish from some point on is the sum up to that point. Both are rearrangements of a finite sum in a commutative
  monoid; no cancellation or distributivity is involved, so infinite entries are harmless.

  An array of rank 2 is read at natural coordinates by `at2` (zero outside the array), so that running sums can be
  stated over `Finset.range` without dependent indices.
-/
import Idealize.ShloMosaic.PureOps.Ideal
import Idealize.ShloMosaic.Lib.ValueIdx

noncomputable section

namespace Cert.BlockSum

open Idealize.ShloMosaic Idealize.ShloMosaic.ValueIdx

/-- A sum over the first `B * (n + 1)` naturals: the first `B * n`, then block `n` of length `B`. -/
theorem sum_range_block {M : Type*} [AddCommMonoid M] (B : ℕ) (g : ℕ → M) (n : ℕ) :
    ∑ k ∈ Finset.range (B * (n + 1)), g k = ∑ k ∈ Finset.range (B * n), g k + ∑ kk : Fin B, g (B * n + kk.val) := by
  rw [show B * (n + 1) = B * n + B from Nat.mul_succ B n, Finset.sum_range_add]
  exact congrArg (_ + ·) (Finset.sum_range fun x => g (B * n + x))

/-- A sum whose terms vanish from `a` on stops at `a`. -/
theorem sum_range_of_zero_tail {M : Type*} [AddCommMonoid M] (a p : ℕ) (g : ℕ → M) (h : ∀ k, a ≤ k → g k = 0) :
    ∑ k ∈ Finset.range (a + p), g k = ∑ k ∈ Finset.range a, g k := by
  rw [Finset.sum_range_add, Finset.sum_eq_zero (fun x _ => h _ (Nat.le_add_right _ _)), add_zero]

/-- A rank-2 array read at natural coordinates: its entry inside, zero outside. -/
def at2 {α : Type} [Zero α] {n0 n1 : ℕ} (A : (⟨2, ![n0, n1]⟩ : Shape).Idx → α) (a b : ℕ) : α :=
  if h : a < n0 ∧ b < n1 then A (ix2 ⟨a, h.1⟩ ⟨b, h.2⟩) else 0

theorem at2_of_lt {α : Type} [Zero α] {n0 n1 : ℕ} (A : (⟨2, ![n0, n1]⟩ : Shape).Idx → α) {a b : ℕ} (ha : a < n0) (hb : b < n1) :
    at2 A a b = A (ix2 ⟨a, ha⟩ ⟨b, hb⟩) := dif_pos ⟨ha, hb⟩

/-- At a genuine index's coordinates it is the entry. -/
theorem at2_coords {α : Type} [Zero α] {n0 n1 : ℕ} (A : (⟨2, ![n0, n1]⟩ : Shape).Idx → α) (r : Fin n0) (q : Fin n1) :
    at2 A r.val q.val = A (ix2 r q) := dif_pos ⟨r.isLt, q.isLt⟩

theorem at2_eq_of_val {α : Type} [Zero α] {n0 n1 : ℕ} (A : (⟨2, ![n0, n1]⟩ : Shape).Idx → α) (j : (⟨2, ![n0, n1]⟩ : Shape).Idx)
    {a b : ℕ} (ha : (j 0).val = a) (hb : (j 1).val = b) : A j = at2 A a b := by
  subst ha hb
  unfold at2
  rw [dif_pos ⟨idx2_lt0 j, idx2_lt1 j⟩]
  exact congrArg A (eq_ix2 j)

end Cert.BlockSum

end
-- ==== Proof.PayIdx.lean ====
/-
  The kernel body's arithmetic read at one entry, over the extended reals.

  The body adds to the carried block `v` the product of the row block `a` ([2048, 1024]) and the column block `b`
  ([1024, 1408]): entry (r, q) of what it stores is `v(r, q) + ∑ₖ a(r, k) · b(k, q)`, the sum over the 1024 positions of
  the contraction axis. The reset stores the zero block. When `a` and `b` are block `n` along the contraction axis of
  two whole arrays and `v(r, q)` is already the sum of the products over the positions before block `n`, the stored
  entry is the sum over the positions up to and including block `n` (a finite sum split in two).
-/
import proofs.«175574_j73650099192114_1_alg».proof.Proof.Gen.KernelIdeal.Skeleton
import proofs.«175574_j73650099192114_1_alg».proof.Proof.BlockSum
import Idealize.ShloMosaic.Lib.ValueIdx
import Idealize.ShloMosaic.Lib.Pipeline.Value
import Idealize.ShloMosaic.PureOps.Ideal.Laws

noncomputable section

open Idealize.ShloMosaic Idealize.ShloMosaic.ValueIdx

namespace Cert.KernelIdeal.PayIdx

open Cert.KernelIdeal Cert.KernelIdeal.Gen Cert.BlockSum

/-- The product's row operand is read at the output's row and the contraction position; -/
theorem lhs_dot_0 (i : S2048x1408.Idx) (q : dot_S2048x1024_S1024x1408_S2048x1408_1_0_0_1_n_n.contr.Idx) :
    (dot_S2048x1024_S1024x1408_S2048x1408_1_0_0_1_n_n.lhsIdx i q 0).val = (i 0).val := by
  unfold DotDims.lhsIdx
  rw [dif_neg (show ¬(0 : Fin S2048x1024.rank) ∈ dot_S2048x1024_S1024x1408_S2048x1408_1_0_0_1_n_n.lhsBatch by decide), dif_pos (show (0 : Fin S2048x1024.rank) ∈ dot_S2048x1024_S1024x1408_S2048x1408_1_0_0_1_n_n.lhsNonContracting by decide)]
  rfl
theorem lhs_dot_1 (i : S2048x1408.Idx) (q : dot_S2048x1024_S1024x1408_S2048x1408_1_0_0_1_n_n.contr.Idx) :
    (dot_S2048x1024_S1024x1408_S2048x1408_1_0_0_1_n_n.lhsIdx i q 1).val = (q ⟨0, by decide⟩).val :=
  dot_S2048x1024_S1024x1408_S2048x1408_1_0_0_1_n_n.lhsIdx_val_of_single rfl i q
/-- its column operand at the contraction position and the output's column. -/
theorem rhs_dot_0 (i : S2048x1408.Idx) (q : dot_S2048x1024_S1024x1408_S2048x1408_1_0_0_1_n_n.contr.Idx) :
    (dot_S2048x1024_S1024x1408_S2048x1408_1_0_0_1_n_n.rhsIdx i q 0).val = (q ⟨0, by decide⟩).val :=
  dot_S2048x1024_S1024x1408_S2048x1408_1_0_0_1_n_n.rhsIdx_val_of_single rfl i q
theorem rhs_dot_1 (i : S2048x1408.Idx) (q : dot_S2048x1024_S1024x1408_S2048x1408_1_0_0_1_n_n.contr.Idx) :
    (dot_S2048x1024_S1024x1408_S2048x1408_1_0_0_1_n_n.rhsIdx i q 1).val = (i 1).val := by
  unfold DotDims.rhsIdx
  rw [dif_neg (show ¬(1 : Fin S1024x1408.rank) ∈ dot_S2048x1024_S1024x1408_S2048x1408_1_0_0_1_n_n.rhsBatch by decide), dif_pos (show (1 : Fin S1024x1408.rank) ∈ dot_S2048x1024_S1024x1408_S2048x1408_1_0_0_1_n_n.rhsNonContracting by decide)]
  rfl

/-- The block product into the zero accumulator, at entry (r, q): the sum over the contraction axis. -/
theorem blockdot_apply (a : FVec Ideal S2048x1024 .bf16) (b : FVec Ideal S1024x1408 .bf16) (r : Fin 2048) (q : Fin 1408) :
    matmul dot_S2048x1024_S1024x1408_S2048x1408_1_0_0_1_n_n none a b (constant S2048x1408 .f32 0x00000000#32) (ix2 r q)
      = ∑ k : Fin 1024, a (ix2 r k) * b (ix2 k q) := by
  simp only [matmul]
  rw [Ideal.matmul_constant_zero_apply, ← Equiv.sum_comp (ValueIdx.contrEquiv1 dot_S2048x1024_S1024x1408_S2048x1408_1_0_0_1_n_n 1024 rfl rfl).symm]
  refine Finset.sum_congr rfl fun k _ => ?_
  have hk := ValueIdx.contrEquiv1_symm_val dot_S2048x1024_S1024x1408_S2048x1408_1_0_0_1_n_n 1024 rfl rfl k
  have el : dot_S2048x1024_S1024x1408_S2048x1408_1_0_0_1_n_n.lhsIdx (ix2 r q) ((ValueIdx.contrEquiv1 dot_S2048x1024_S1024x1408_S2048x1408_1_0_0_1_n_n 1024 rfl rfl).symm k) = ix2 r k := funext fun x => Fin.ext (by
    match x with
    | ⟨0, _⟩ => exact lhs_dot_0 _ _
    | ⟨1, _⟩ => exact (lhs_dot_1 _ _).trans hk)
  have er : dot_S2048x1024_S1024x1408_S2048x1408_1_0_0_1_n_n.rhsIdx (ix2 r q) ((ValueIdx.contrEquiv1 dot_S2048x1024_S1024x1408_S2048x1408_1_0_0_1_n_n 1024 rfl rfl).symm k) = ix2 k q := funext fun x => Fin.ext (by
    match x with
    | ⟨0, _⟩ => exact (rhs_dot_0 _ _).trans hk
    | ⟨1, _⟩ => exact rhs_dot_1 _ _)
  rw [el, er]

/-- The reset's block is zero everywhere. -/
theorem reset_apply (j : S2048x1408.Idx) : k0_pay1 (F := Ideal) j = 0 := by
  show Ideal.ofBits .f32 0x00000000#32 = 0
  exact Ideal.ofBits_zero_f32

/-- The accumulation step's block at entry (r, q): the carried entry plus the block product's. -/
theorem step_apply (v : Vec Ideal S2048x1408 .f32) (a : Vec Ideal S2048x1024 .bf16) (b : Vec Ideal S1024x1408 .bf16)
    (r : Fin 2048) (q : Fin 1408) :
    k0_pay2 (F := Ideal) v a b (ix2 r q) = v (ix2 r q) + ∑ k : Fin 1024, a (ix2 r k) * b (ix2 k q) := by
  unfold k0_pay2
  simp only [shapeCast_self]
  exact congrArg (v (ix2 r q) + ·) (blockdot_apply a b r q)

/-- One step of the running sum: with `a`, `b` block `n` of the arrays `X`, `D` along the contraction axis (at row
    `R`, column `Q`) and the carried entry the sum over the positions before block `n`, the stored entry is the sum over
    the positions through block `n`. -/
theorem step_sum {n0 n1 n2 : ℕ} (X : (⟨2, ![n0, n1]⟩ : Shape).Idx → EReal) (D : (⟨2, ![n1, n2]⟩ : Shape).Idx → EReal)
    (v : Vec Ideal S2048x1408 .f32) (a : Vec Ideal S2048x1024 .bf16) (b : Vec Ideal S1024x1408 .bf16)
    (r : Fin 2048) (q : Fin 1408) (R Q n : ℕ)
    (ha : ∀ k : Fin 1024, a (ix2 r k) = at2 X R (1024 * n + k.val))
    (hb : ∀ k : Fin 1024, b (ix2 k q) = at2 D (1024 * n + k.val) Q)
    (hv : v (ix2 r q) = ∑ k ∈ Finset.range (1024 * n), at2 X R k * at2 D k Q) :
    k0_pay2 (F := Ideal) v a b (ix2 r q) = ∑ k ∈ Finset.range (1024 * (n + 1)), at2 X R k * at2 D k Q := by
  rw [step_apply, hv, sum_range_block 1024 (fun k => at2 X R k * at2 D k Q) n]
  exact congrArg (_ + ·) (Finset.sum_congr rfl fun k _ => by rw [ha k, hb k])

end Cert.KernelIdeal.PayIdx

end
-- ==== Proof.Blocks.lean ====
/-
  The input windows' blocks, read at one entry of the whole arrays.

  The grid is (row block i, contraction block n), point t = 28·i + n. The row operand's block at t is rows
  2048·i … 2048·i + 2047 and contraction positions 1024·n … 1024·n + 1023 of the padded [4096, 28672] array; the column
  operand's block is contraction positions 1024·n … of the padded [28672, 1408] array, all 1408 columns; the output's
  block is rows 2048·i … of the [4096, 1408] result.
-/
import proofs.«175574_j73650099192114_1_alg».proof.Proof.Gen.KernelIdeal.Frame
import proofs.«175574_j73650099192114_1_alg».proof.Proof.BlockSum
import Idealize.ShloMosaic.Lib.Pipeline.Value
import Idealize.ShloMosaic.Lib.ValueIdx

noncomputable section

open Idealize.ShloMosaic Idealize.ShloMosaic.TcCoe Idealize.SL.Sem Idealize.ShloMosaic.ValueIdx

namespace Cert.KernelIdeal.Blocks

open Cert.KernelIdeal Cert.KernelIdeal.Gen Cert.BlockSum

variable (m : (ℓ : Loc nD τ sig) → Buf (Elt Ideal) ℓ)

/-- The padded row operand and the padded column operand, as the kernel region finds them. -/
abbrev lhsArr (c : Dev nD) : FVec Ideal S4096x28672 .bf16 := V m c main_v21
abbrev rhsArr (c : Dev nD) : FVec Ideal S28672x1408 .bf16 := V m c main_v22

/-- The block indices at point `t`: row block `t / 28`, contraction block `t % 28`. -/
theorem idx_facts : ∀ t : Fin cfg0.N, win0_0.index t (0 : Fin 2) = t.val / 28 ∧ win0_0.index t (1 : Fin 2) = t.val % 28
    ∧ win0_1.index t (0 : Fin 2) = t.val % 28 ∧ win0_1.index t (1 : Fin 2) = 0
    ∧ win0_2.index t (0 : Fin 2) = t.val / 28 ∧ win0_2.index t (1 : Fin 2) = 0 :=
  (by decide +kernel : ∀ t : Fin grid0.N, _)

theorem lhs_block_apply (c : Dev nD) (t : Fin cfg0.N) (r : Fin 2048) (k : Fin 1024) :
    (iblk m c 0 t : Vec Ideal S2048x1024 .bf16) (ix2 r k)
      = at2 (lhsArr m c) (2048 * (t.val / 28) + r.val) (1024 * (t.val % 28) + k.val) := by
  obtain ⟨e0, e1, -⟩ := idx_facts t
  unfold iblk
  rw [View.read_apply]
  show V m c main_v21 _ = _
  refine at2_eq_of_val (lhsArr m c) _ ?_ ?_
  · show win0_0.index t (0 : Fin 2) * 2048 + 1 * r.val = _
    rw [e0]; omega
  · show win0_0.index t (1 : Fin 2) * 1024 + 1 * k.val = _
    rw [e1]; omega

theorem rhs_block_apply (c : Dev nD) (t : Fin cfg0.N) (k : Fin 1024) (q : Fin 1408) :
    (iblk m c 1 t : Vec Ideal S1024x1408 .bf16) (ix2 k q)
      = at2 (rhsArr m c) (1024 * (t.val % 28) + k.val) q.val := by
  obtain ⟨-, -, e2, e3, -⟩ := idx_facts t
  unfold iblk
  rw [View.read_apply]
  show V m c main_v22 _ = _
  refine at2_eq_of_val (rhsArr m c) _ ?_ ?_
  · show win0_1.index t (0 : Fin 2) * 1024 + 1 * k.val = _
    rw [e2]; omega
  · show win0_1.index t (1 : Fin 2) * 1408 + 1 * q.val = _
    rw [e3]; omega

end Cert.KernelIdeal.Blocks

end
-- ==== Proof.Accum.lean ====
/-
  The running sum carried in the output block, point by point.

  After the grid point of row block i and contraction block n, entry (r, q) of the output block is the sum, over the
  contraction positions k < 1024·(n + 1), of lhs(2048·i + r, k) · rhs(k, q): at n = 0 the block is reset to zero and
  the first block's products are added; at n > 0 the block product of block n is added to what the point before left.
  By induction on the point.
-/
import proofs.«175574_j73650099192114_1_alg».proof.Proof.Pieces
import proofs.«175574_j73650099192114_1_alg».proof.Proof.PayIdx
import proofs.«175574_j73650099192114_1_alg».proof.Proof.Blocks

noncomputable section

open Idealize.ShloMosaic Idealize.ShloMosaic.TcCoe Idealize.SL.Sem Idealize.ShloMosaic.ValueIdx

namespace Cert.KernelIdeal.Accum

open Cert.KernelIdeal Cert.KernelIdeal.Gen Cert.BlockSum Cert.KernelIdeal.Blocks

variable (m : (ℓ : Loc nD τ sig) → Buf (Elt Ideal) ℓ)

/-- The sum of the products over the first `n` contraction positions, at row `R` and column `Q` of the padded arrays. -/
def psum (c : Dev nD) (R Q n : ℕ) : EReal :=
  ∑ k ∈ Finset.range n, at2 (lhsArr m c) R k * at2 (rhsArr m c) k Q

/-- One body step at point `t`: from the sum over the blocks before to the sum through this block. -/
theorem step (c : Dev nD) (t : Fin cfg0.N) (v : Vec Ideal S2048x1408 .f32) (r : Fin 2048) (q : Fin 1408)
    (hv : v (ix2 r q) = psum m c (2048 * (t.val / 28) + r.val) q.val (1024 * (t.val % 28))) :
    k0_pay2 (F := Ideal) v (iblk m c 0 t) (iblk m c 1 t) (ix2 r q)
      = psum m c (2048 * (t.val / 28) + r.val) q.val (1024 * (t.val % 28 + 1)) :=
  PayIdx.step_sum (lhsArr m c) (rhsArr m c) v (iblk m c 0 t) (iblk m c 1 t) r q _ _ _
    (fun k => lhs_block_apply m c t r k) (fun k => rhs_block_apply m c t k q) hv

/-- A point that starts a row block. -/
theorem at_first (c : Dev nD) (t : Fin cfg0.N) (h0 : t.val % 28 = 0) (r : Fin 2048) (q : Fin 1408) :
    outsAt0 m c t.val t.isLt (ix2 r q) = psum m c (2048 * (t.val / 28) + r.val) q.val (1024 * (t.val % 28 + 1)) := by
  rw [outsAt0_A m c t h0]
  refine (congrFun (Pieces.out_A (F := Ideal) c (grid0.coords t) (ms0_0 t) (hs0_0 t) (ms0_1 t) (hs0_1 t) (ms0_2 t) (hs0_2 t)
    ((hcond0_0 t).mpr h0) (iblk m c 0 t) (iblk m c 1 t)) (ix2 r q)).trans ?_
  refine step m c t _ r q ?_
  rw [PayIdx.reset_apply, h0]
  simp [psum]

/-- A later point of a row block, given the point before. -/
theorem at_later (c : Dev nD) (t : Fin cfg0.N) (h0 : ¬t.val % 28 = 0) (r : Fin 2048) (q : Fin 1408)
    (ih : ∀ h' : t.val - 1 < cfg0.N, outsAt0 m c (t.val - 1) h' (ix2 r q)
      = psum m c (2048 * ((t.val - 1) / 28) + r.val) q.val (1024 * ((t.val - 1) % 28 + 1))) :
    outsAt0 m c t.val t.isLt (ix2 r q) = psum m c (2048 * (t.val / 28) + r.val) q.val (1024 * (t.val % 28 + 1)) := by
  rw [outsAt0_B m c t h0]
  refine (congrFun (Pieces.out_B (F := Ideal) c (grid0.coords t) (ms0_0 t) (hs0_0 t) (ms0_1 t) (hs0_1 t) (ms0_2 t) (hs0_2 t)
    (fun hh => h0 ((hcond0_0 t).mp hh)) (iblk m c 0 t) (iblk m c 1 t)
    (outsAt0 m c (t.val - 1) (Nat.lt_of_le_of_lt (Nat.sub_le _ _) t.isLt))) (ix2 r q)).trans ?_
  refine step m c t _ r q ?_
  rw [ih]
  have e1 : (t.val - 1) / 28 = t.val / 28 := by omega
  have e2 : (t.val - 1) % 28 + 1 = t.val % 28 := by omega
  rw [e1, e2]

/-- After every point the output block holds the running sum. -/
theorem outsAt_eq (c : Dev nD) (n : ℕ) : ∀ (h : n < cfg0.N) (r : Fin 2048) (q : Fin 1408),
    outsAt0 m c n h (ix2 r q) = psum m c (2048 * (n / 28) + r.val) q.val (1024 * (n % 28 + 1)) := by
  induction n with
  | zero => intro h r q; exact at_first m c ⟨0, h⟩ rfl r q
  | succ n ih =>
    intro h r q
    by_cases h0 : (n + 1) % 28 = 0
    · exact at_first m c ⟨n + 1, h⟩ h0 r q
    · exact at_later m c ⟨n + 1, h⟩ h0 r q (fun h' => ih h' r q)

end Cert.KernelIdeal.Accum

end
-- ==== Proof.Final.lean ====
/-
  The kernel program's result array.

  The output block of a row block is written back once, after its last contraction block, when the running sum has
  reached all 28672 contraction positions; the two row blocks tile the [4096, 1408] result, so the region leaves there
  the product of the padded operands. The program then keeps the first 1387 columns.
-/
import proofs.«175574_j73650099192114_1_alg».proof.Proof.Accum
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.Final

open Cert.KernelIdeal Cert.KernelIdeal.Gen Cert.BlockSum Cert.KernelIdeal.Blocks Cert.KernelIdeal.Accum

variable (m : (ℓ : Loc nD τ sig) → Buf (Elt Ideal) ℓ) (ρ : Dev nD → PrngReg)

/-- The [4096, 1408] product of the padded operands: entry (R, Q) is the sum over all 28672 contraction positions. -/
def prodArr (c : Dev nD) : FVec Ideal S4096x1408 .f32 := fun j => psum m c (j 0).val (j 1).val 28672

set_option maxRecDepth 65536 in
/-- What the last point of a row block writes back is that row block of the product: after contraction block 27 the
    running sum has reached all 28·1024 positions. -/
theorem flushed_eq (c : Dev nD) (t : Fin cfg0.N) (hf : (cfg0.win 2).flush t = true) :
    (dats m 0 c).flushed 2 t = ((cfg0.win 2).blk t).view.read (Elt Ideal) (prodArr m c) := by
  have h27 : t.val % 28 = 27 := (flush0_2 t).mp hf
  obtain ⟨-, -, -, -, e4, e5⟩ := idx_facts t
  show (cfg0.win 2).cut (grid0.coords t) ((dats m 0 c).after 2 t) = _
  rw [after0_2]
  funext j
  rw [View.read_apply]
  have hr : (j 0).val < 2048 := Nat.lt_of_lt_of_le (j 0).isLt ((cfg0.win 2).xsize_le (grid0.coords t) 0)
  have hq : (j 1).val < 1408 := Nat.lt_of_lt_of_le (j 1).isLt ((cfg0.win 2).xsize_le (grid0.coords t) 1)
  have hx : (cfg0.win 2).xinj (grid0.coords t) j = ix2 (⟨(j 0).val, hr⟩ : Fin 2048) (⟨(j 1).val, hq⟩ : Fin 1408) :=
    funext fun a => by
      match a with
      | ⟨0, _⟩ => rfl
      | ⟨1, _⟩ => rfl
  show outsAt0 m c t.val t.isLt _ = prodArr m c _
  rw [hx, outsAt_eq m c t.val t.isLt ⟨(j 0).val, hr⟩ ⟨(j 1).val, hq⟩, h27]
  have hR : ((((cfg0.win 2).blk t).view.emb j) 0).val = 2048 * (t.val / 28) + (j 0).val := by
    show win0_2.index t (0 : Fin 2) * 2048 + 1 * (j 0).val = _
    rw [e4]; omega
  have hQ : ((((cfg0.win 2).blk t).view.emb j) 1).val = (j 1).val := by
    show win0_2.index t (1 : Fin 2) * 1408 + 1 * (j 1).val = _
    rw [e5]; omega
  show psum m c _ _ _ = psum m c _ _ 28672
  rw [hR, hQ]

/-- An index of the result array is in point `t`'s block iff each coordinate is in the block's range. -/
theorem mem_blk (t : Fin cfg0.N) (i : S4096x1408.Idx) :
    i ∈ ((cfg0.win 2).blk t).view.set ↔ ∀ a : Fin 2, win0_2.index t a * S2048x1408.size a ≤ (i a).val ∧ (i a).val < win0_2.index t a * S2048x1408.size a + S2048x1408.size a := by
  show i ∈ ((View.whole main_v23).slice (win0_2.rect t)).set ↔ _
  rw [View.set_slice_whole, Rect.mem_set_unit]
  exact Iff.rfl

/-- Every row of the result lies in the block written back at the last point of its row block. -/
theorem cover (i : S4096x1408.Idx) : ∃ t : Fin cfg0.N, (cfg0.win 2).flush t = true ∧ i ∈ ((cfg0.win 2).blk t).view.set := by
  have hi0 : (i 0).val < 4096 := idx2_lt0 i
  have hi1 : (i 1).val < 1408 := idx2_lt1 i
  have hN : cfg0.N = 56 := N_0
  obtain ⟨t, ht⟩ : ∃ t : Fin cfg0.N, t.val = 28 * ((i 0).val / 2048) + 27 := ⟨⟨28 * ((i 0).val / 2048) + 27, by rw [hN]; omega⟩, rfl⟩
  obtain ⟨-, -, -, -, e4, e5⟩ := idx_facts t
  refine ⟨t, (flush0_2 t).mpr (by omega), ?_⟩
  rw [mem_blk]
  intro a
  match a with
  | ⟨0, _⟩ =>
    show win0_2.index t (0 : Fin 2) * 2048 ≤ (i 0).val ∧ (i 0).val < win0_2.index t (0 : Fin 2) * 2048 + 2048
    rw [e4]; omega
  | ⟨1, _⟩ =>
    show win0_2.index t (1 : Fin 2) * 1408 ≤ (i 1).val ∧ (i 1).val < win0_2.index t (1 : Fin 2) * 1408 + 1408
    rw [e5]; omega

/-- So the kernel region leaves the product in its result array. -/
theorem final (c : Dev nD) : (dats m 0 c).arrAt 2 cfg0.N = prodArr m c :=
  (dats m 0 c).arrAt_eq_of_cover 2 (prodArr m c) (flushed_eq m c) cover

/-- The program's result: the first 1387 columns of the product. -/
def result (c : Dev nD) : FVec Ideal S4096x1387 .f32 :=
  extractStridedSlice S4096x1387 ![0, 0] (prodArr m c) Facts₀.slices_S4096x1408_S4096x1387_0_0

/-- The slice after the region reads the product the region left. -/
theorem tail_eq (c : Dev nD) : Pipeline.afterTail₀ cfgs (dats m) 0 (V0 m) [hostOps1] c main_v24 = result m c := by
  unfold Pipeline.afterTail₀
  show StableHlo.after hostOps1 _ (Proc.devRef .tc main_v24) = _
  after_results
  exact congrArg (fun A => extractStridedSlice S4096x1387 ![0, 0] A Facts₀.slices_S4096x1408_S4096x1387_0_0)
    ((Pipeline.withArrays_arr spec0 launch0.win.arr_inj c (V0 m c) (fun w => (dats m 0 c).arrAt w cfg0.N) 2).trans (final m c))

/-- The kernel's run, read: the result at the sliced product, the arguments unchanged. -/
theorem run : θ_run defs (onTc (τ := τ) (main (F := Ideal))) ⟨m, fun _ => 0, ρ⟩ fun r => ∀ c : Dev nD,
      r.2.mem ((c.tc : Thread nD τ).loc main_v24) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v24 (Pipeline.mem_restRefs_of main_v24 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.Final

end
-- ==== Proof.HostPre.lean ====
/-
  What the kernel region finds in its two operands.

  Before the region the program scatters the weights into a zero [27687, 1387] matrix at the (wrapped) index pairs —
  the dense matrix —, pads the input x with 985 zero columns to [4096, 28672] and the dense matrix with 985 zero rows
  and 21 zero columns to [28672, 1408], and changes both to the narrower float format. The padding value is the
  integer zero converted to a float.
-/
import proofs.«175574_j73650099192114_1_alg».proof.Proof.Gen.KernelIdeal.Frame
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem

namespace Cert.KernelIdeal.HostPre

open Cert.KernelIdeal Facts₀

variable {F : FTy → Type} [FloatOps F]
variable (m : (ℓ : Loc nD τ sig) → Buf (Elt F) ℓ)

/-- The dense matrix scattered from the index pairs and the weights. -/
def dense (x1 : (⟨S71000x2, .i32⟩ : BufTy).Contents (Elt F)) (x2 : (⟨S71000, .f32⟩ : BufTy).Contents (Elt F)) : (⟨S27687x1387, .f32⟩ : BufTy).Contents (Elt F) :=
  Host.scatterAdd scatter_S27687x1387_S71000x2_S71000_n_01_01_1 (broadcastInDim S27687x1387 ![] bcast_S_S27687x1387 (constant S_ .f32 0x00000000#32)) (concatenate S71000x2 1 [⟨S71000x1, (broadcastInDim S71000x1 ![0] bcast_S71000_S71000x1_0 (select (cmpi .slt (shapeCast _ (extractStridedSlice S71000x1 ![0, 0] (x1) slices_S71000x2_S71000x1_0_0) shapeCasts_S71000x1_S71000) (broadcastInDim S71000 ![] bcast_S_S71000 (constantI S_ 32 0#32))) (addi (shapeCast _ (extractStridedSlice S71000x1 ![0, 0] (x1) slices_S71000x2_S71000x1_0_0) shapeCasts_S71000x1_S71000) (broadcastInDim S71000 ![] bcast_S_S71000 (constantI S_ 32 27687#32))) (shapeCast _ (extractStridedSlice S71000x1 ![0, 0] (x1) slices_S71000x2_S71000x1_0_0) shapeCasts_S71000x1_S71000)))⟩, ⟨S71000x1, (broadcastInDim S71000x1 ![0] bcast_S71000_S71000x1_0 (select (cmpi .slt (shapeCast _ (extractStridedSlice S71000x1 ![0, 1] (x1) slices_S71000x2_S71000x1_0_1) shapeCasts_S71000x1_S71000) (broadcastInDim S71000 ![] bcast_S_S71000 (constantI S_ 32 0#32))) (addi (shapeCast _ (extractStridedSlice S71000x1 ![0, 1] (x1) slices_S71000x2_S71000x1_0_1) shapeCasts_S71000x1_S71000) (broadcastInDim S71000 ![] bcast_S_S71000 (constantI S_ 32 1387#32))) (shapeCast _ (extractStridedSlice S71000x1 ![0, 1] (x1) slices_S71000x2_S71000x1_0_1) shapeCasts_S71000x1_S71000)))⟩] concatenates_S71000x1_S71000x1_S71000x2_d1) (x2)

/-- The row operand at the region's entry: x padded on the right, in the narrower format. -/
theorem entry_lhs (c : Dev nD) : (Gen.V m c main_v21 : (⟨S4096x28672, .bf16⟩ : BufTy).Contents (Elt F))
    = truncf .bf16 (pad S4096x28672 ![0, 0] ![0, 985] ![0, 0] (m ((c : Thread nD τ).loc main_arg0)) (sitofp .f32 (constantI S_ 32 0#32) : FVec F S_ .f32) pads_S4096x27687_S4096x28672_000_09850 h_S_) bitsLt_bf16_f32 := by
  dsimp only [Gen.V, Gen.V0]
  simp only [Gen.hostOps0, Gen.hostOps0_1, Gen.hostOps0_2, Gen.hostOps0_3, Gen.hostOps0_4, List.flatten_cons, List.flatten_nil, List.append_nil, List.cons_append, List.nil_append]
  after_results
  rfl

set_option maxHeartbeats 4000000 in
/-- The column operand at the region's entry: the dense matrix padded below and on the right, in the narrower format. -/
theorem entry_rhs (c : Dev nD) : (Gen.V m c main_v22 : (⟨S28672x1408, .bf16⟩ : BufTy).Contents (Elt F))
    = truncf .bf16 (pad S28672x1408 ![0, 0] ![985, 21] ![0, 0] (dense (m ((c : Thread nD τ).loc main_arg1)) (m ((c : Thread nD τ).loc main_arg2))) (sitofp .f32 (constantI S_ 32 0#32) : FVec F S_ .f32) pads_S27687x1387_S28672x1408_09850_0210 h_S_) bitsLt_bf16_f32 := by
  dsimp only [Gen.V, Gen.V0]
  simp only [Gen.hostOps0, Gen.hostOps0_1, Gen.hostOps0_2, Gen.hostOps0_3, Gen.hostOps0_4, List.flatten_cons, List.flatten_nil, List.append_nil, List.cons_append, List.nil_append]
  after_results
  rfl

end Cert.KernelIdeal.HostPre

end
-- ==== Proof.PadRead.lean ====
/-
  A rank-2 array padded at the high end of its axes, read at natural coordinates.

  Padding only at the high ends keeps every entry of the operand at its own coordinates and puts the padding value at
  every coordinate past the operand's extent. A change of float format is the identity on extended reals, and the
  integer zero converted to a float is the real zero.
-/
import proofs.«175574_j73650099192114_1_alg».proof.Proof.BlockSum
import Idealize.ShloMosaic.Lib.KernelVsHost
import Idealize.ShloMosaic.Lib.ValueIdx
import Idealize.ShloMosaic.PureOps.Ideal

noncomputable section

open Idealize.ShloMosaic Idealize.ShloMosaic.ValueIdx

namespace Cert.PadRead

open Cert.BlockSum

/-- Inside the operand's extents the padded array is the operand. -/
theorem at2_pad_inside {α : Type} [Zero α] {n0 n1 m0 m1 : ℕ} (hi : Fin 2 → ℕ) (x : (⟨2, ![n0, n1]⟩ : Shape).Idx → α) {u : Shape} (v : u.Idx → α)
    (h : (⟨2, ![n0, n1]⟩ : Shape).Pads ![0, 0] hi ![0, 0] ⟨2, ![m0, m1]⟩) (hu : 0 < u.numel) {a b : ℕ}
    (ha : a < n0) (hb : b < n1) (ha' : a < m0) (hb' : b < m1) :
    at2 (pad ⟨2, ![m0, m1]⟩ ![0, 0] hi ![0, 0] x v h hu) a b = at2 x a b := by
  rw [at2_of_lt _ ha' hb', at2_of_lt _ ha hb]
  refine pad_apply_of_inside ![0, 0] hi ![0, 0] x v h hu _ _ fun ax => ?_
  match ax with
  | ⟨0, _⟩ => show a = 0 + a * (0 + 1); omega
  | ⟨1, _⟩ => show b = 0 + b * (0 + 1); omega

/-- Past the operand's last column the padded array holds the padding value. -/
theorem at2_pad_past_cols {α : Type} [Zero α] {n0 n1 m0 m1 : ℕ} (hi : Fin 2 → ℕ) (x : (⟨2, ![n0, n1]⟩ : Shape).Idx → α) {u : Shape} (v : u.Idx → α)
    (h : (⟨2, ![n0, n1]⟩ : Shape).Pads ![0, 0] hi ![0, 0] ⟨2, ![m0, m1]⟩) (hu : 0 < u.numel) {a b : ℕ}
    (hb : n1 ≤ b) (ha' : a < m0) (hb' : b < m1) :
    at2 (pad ⟨2, ![m0, m1]⟩ ![0, 0] hi ![0, 0] x v h hu) a b = v (Shape.Idx.first hu) := by
  rw [at2_of_lt _ ha' hb']
  refine pad_apply_of_not_inside ![0, 0] hi ![0, 0] x v h hu _ (1 : Fin 2) ?_
  show ¬(0 ≤ b ∧ (b - 0) % (0 + 1) = 0 ∧ (b - 0) / (0 + 1) < n1)
  rintro ⟨_, _, h3⟩
  simp only [Nat.sub_zero, Nat.zero_add, Nat.div_one] at h3
  omega

/-- A change of float format is the identity on extended reals. -/
theorem truncf_bf16_ideal {s : Shape} (y : FVec Ideal s .f32) (hb : FTy.bits .bf16 < FTy.bits .f32) :
    (truncf .bf16 y hb : FVec Ideal s .bf16) = y := rfl

/-- The integer zero converted to a float is zero. -/
theorem sitofp_zero {s : Shape} (i : s.Idx) : (sitofp .f32 (constantI s 32 0#32) : FVec Ideal s .f32) i = 0 := by
  show (((0#32 : BitVec 32).toInt : ℝ) : EReal) = 0
  simp

end Cert.PadRead

end
-- ==== Proof.Bridge.lean ====
/-
  The kernel's result and the reference's are one function of the arguments.

  Entry (r, q) of the kernel's result is the sum over all 28672 contraction positions of the padded operands'
  products. Past position 27687 the row operand is the zero padding, so those products are zero (zero times any
  extended real is zero) and the sum stops at 27687; below it the padded operands are x and the dense matrix
  themselves. That is the reference's matrix product of x with the same dense matrix at (r, q). Only commutativity
  and associativity of the extended reals' addition and `0 · a = 0` are used, so no finiteness is needed.
-/
import proofs.«175574_j73650099192114_1_alg».proof.Proof.Final
import proofs.«175574_j73650099192114_1_alg».proof.Proof.HostPre
import proofs.«175574_j73650099192114_1_alg».proof.Proof.PadRead
import proofs.«175574_j73650099192114_1_alg».proof.Proof.Gen.ReferenceIdeal.Read

noncomputable section

open Idealize.ShloMosaic Idealize.ShloMosaic.TcCoe Idealize.SL.Sem Idealize.ShloMosaic.ValueIdx

namespace Cert.KernelIdeal.Bridge

open Cert.KernelIdeal Cert.BlockSum Cert.PadRead Cert.KernelIdeal.Blocks Cert.KernelIdeal.Accum Cert.KernelIdeal.Final

variable (m : (ℓ : Loc nD τ sig) → Buf (Elt Ideal) ℓ)

/-- The input x and the dense matrix scattered from the other two arguments. -/
abbrev xArr (c : Dev nD) : FVec Ideal S4096x27687 .f32 := m ((c : Thread nD τ).loc main_arg0)
abbrev denseArr (c : Dev nD) : FVec Ideal S27687x1387 .f32 :=
  HostPre.dense (m ((c : Thread nD τ).loc main_arg1)) (m ((c : Thread nD τ).loc main_arg2))

theorem lhsArr_eq (c : Dev nD) : lhsArr m c
    = pad S4096x28672 ![0, 0] ![0, 985] ![0, 0] (xArr m c) (sitofp .f32 (constantI S_ 32 0#32) : FVec Ideal S_ .f32)
        Facts₀.pads_S4096x27687_S4096x28672_000_09850 Facts₀.h_S_ :=
  HostPre.entry_lhs m c

theorem rhsArr_eq (c : Dev nD) : rhsArr m c
    = pad S28672x1408 ![0, 0] ![985, 21] ![0, 0] (denseArr m c) (sitofp .f32 (constantI S_ 32 0#32) : FVec Ideal S_ .f32)
        Facts₀.pads_S27687x1387_S28672x1408_09850_0210 Facts₀.h_S_ :=
  HostPre.entry_rhs m c

/-- Below contraction position 27687 the padded row operand is x; -/
theorem lhs_in (c : Dev nD) {a k : ℕ} (ha : a < 4096) (hk : k < 27687) : at2 (lhsArr m c) a k = at2 (xArr m c) a k := by
  rw [lhsArr_eq]
  exact at2_pad_inside ![0, 985] _ _ _ _ ha hk ha (by omega)

/-- from there on it is zero; -/
theorem lhs_past (c : Dev nD) {a k : ℕ} (ha : a < 4096) (hk : 27687 ≤ k) (hk' : k < 28672) : at2 (lhsArr m c) a k = 0 := by
  rw [lhsArr_eq, at2_pad_past_cols ![0, 985] _ _ _ _ hk ha hk']
  exact sitofp_zero _

/-- and the padded column operand is the dense matrix inside the dense matrix's extents. -/
theorem rhs_in (c : Dev nD) {k q : ℕ} (hk : k < 27687) (hq : q < 1387) : at2 (rhsArr m c) k q = at2 (denseArr m c) k q := by
  rw [rhsArr_eq]
  exact at2_pad_inside ![985, 21] _ _ _ _ hk hq (by omega) (by omega)

/-- The kernel's result at (r, q): the product of x and the dense matrix there. -/
theorem result_apply (c : Dev nD) (r : Fin 4096) (q : Fin 1387) :
    result m c (ix2 r q) = ∑ k : Fin 27687, xArr m c (ix2 r k) * denseArr m c (ix2 k q) := by
  have hq : q.val < 1408 := by have := q.isLt; omega
  have hz : ∀ k, 27687 ≤ k → at2 (lhsArr m c) r.val k * at2 (rhsArr m c) k q.val = 0 := by
    intro k hk
    by_cases hk' : k < 28672
    · rw [lhs_past m c r.isLt hk hk', zero_mul]
    · unfold at2
      rw [dif_neg (fun h => hk' h.2), zero_mul]
  unfold result
  rw [extractStridedSlice_apply ![0, 0] (prodArr m c) Facts₀.slices_S4096x1408_S4096x1387_0_0 (ix2 r q) (ix2 r ⟨q.val, hq⟩)
    (fun a => by
      match a with
      | ⟨0, _⟩ => show r.val = 0 + r.val; omega
      | ⟨1, _⟩ => show q.val = 0 + q.val; omega)]
  show psum m c r.val q.val 28672 = _
  unfold psum
  refine (sum_range_of_zero_tail 27687 985 _ hz).trans ?_
  rw [Finset.sum_range]
  refine Finset.sum_congr rfl fun k _ => ?_
  rw [lhs_in m c r.isLt k.isLt, rhs_in m c k.isLt q.isLt, at2_coords, at2_coords]

/-- The reference scatters the same dense matrix. -/
theorem dense_eq_ref (x1 : (⟨S71000x2, .i32⟩ : BufTy).Contents (Elt Ideal)) (x2 : (⟨S71000, .f32⟩ : BufTy).Contents (Elt Ideal)) :
    Cert.ReferenceIdeal.Read.val_main_v18 (F := Ideal) x1 x2 = HostPre.dense (F := Ideal) x1 x2 := rfl

/-- The reference's result at (r, q): the product of x and the dense matrix there. -/
theorem ref_apply (x0 : (⟨S4096x27687, .f32⟩ : BufTy).Contents (Elt Ideal)) (x1 : (⟨S71000x2, .i32⟩ : BufTy).Contents (Elt Ideal))
    (x2 : (⟨S71000, .f32⟩ : BufTy).Contents (Elt Ideal)) (r : Fin 4096) (q : Fin 1387) :
    Cert.ReferenceIdeal.Read.val_main_v19 (F := Ideal) x0 x1 x2 (ix2 r q)
      = ∑ k : Fin 27687, x0 (ix2 r k) * HostPre.dense (F := Ideal) x1 x2 (ix2 k q) := by
  rw [Cert.ReferenceIdeal.Read.val_main_v19_apply]
  refine Finset.sum_congr rfl fun k _ => ?_
  have el : Cert.ReferenceIdeal.Read.lidx_main_v19 (ix2 r q) k = ix2 r k := funext fun a => Fin.ext (by
    match a with
    | ⟨0, _⟩ => rfl
    | ⟨1, _⟩ => rfl)
  have er : Cert.ReferenceIdeal.Read.ridx_main_v19 (ix2 r q) k = ix2 k q := funext fun a => Fin.ext (by
    match a with
    | ⟨0, _⟩ => rfl
    | ⟨1, _⟩ => rfl)
  rw [el, er, dense_eq_ref]

/-- So the two results are equal, as whole arrays, when the arguments are. -/
theorem results_eq (c : Dev nD) :
    Cert.ReferenceIdeal.Read.val_main_v19 (F := Ideal) (m ((c : Thread nD τ).loc main_arg0)) (m ((c : Thread nD τ).loc main_arg1))
      (m ((c : Thread nD τ).loc main_arg2)) = result m c := by
  funext j
  obtain ⟨r, q, rfl⟩ : ∃ (r : Fin 4096) (q : Fin 1387), j = ix2 r q := ⟨j 0, j 1, eq_ix2 j⟩
  rw [ref_apply, result_apply]

end Cert.KernelIdeal.Bridge

end
-- ==== Proof.lean ====
/-
  The kernel pads x ([4096, 27687]) and the dense matrix scattered from the index pairs and weights ([27687, 1387])
  with zeros to [4096, 28672] and [28672, 1408], multiplies them block by block — 2 row blocks of 2048 rows, the
  contraction axis in 28 blocks of 1024, each row block's [2048, 1408] output block zeroed at the first contraction
  block and then accumulated in place — and keeps the first 1387 columns. The reference multiplies x by the same dense
  matrix in one product.

  Over the extended reals the two agree entry by entry: the running sum after contraction block n is the sum of the
  products over the first 1024·(n + 1) contraction positions (induction on the grid point), after block 27 it is the
  sum over all 28672 positions, the positions from 27687 on contribute `0 · d = 0`, and below 27687 the padded operands
  are the unpadded ones. Only the commutative-monoid laws of addition and `0 · a = 0` are used, so the finiteness of
  the inputs is not needed. Nothing was rewritten by the idealization, so `preserves` is trivial. The two kernel
  programs' frames are their generated runs; the reference's is its generated run with the result dropped.
-/
import proofs.«175574_j73650099192114_1_alg».proof.Defs
import proofs.«175574_j73650099192114_1_alg».proof.Proof.Gen.Kernel
import proofs.«175574_j73650099192114_1_alg».proof.Proof.Gen.Kernel.Skeleton
import proofs.«175574_j73650099192114_1_alg».proof.Proof.Gen.Kernel.Launch
import proofs.«175574_j73650099192114_1_alg».proof.Proof.Gen.Kernel.Points
import proofs.«175574_j73650099192114_1_alg».proof.Proof.Gen.Kernel.Frame
import proofs.«175574_j73650099192114_1_alg».proof.Proof.Gen.KernelIdeal
import proofs.«175574_j73650099192114_1_alg».proof.Proof.Gen.KernelIdeal.Skeleton
import proofs.«175574_j73650099192114_1_alg».proof.Proof.Gen.KernelIdeal.Launch
import proofs.«175574_j73650099192114_1_alg».proof.Proof.Gen.KernelIdeal.Points
import proofs.«175574_j73650099192114_1_alg».proof.Proof.Gen.KernelIdeal.Frame
import proofs.«175574_j73650099192114_1_alg».proof.Proof.Gen.ReferenceIdeal
import proofs.«175574_j73650099192114_1_alg».proof.Proof.Gen.Pre_finite_inputs
import proofs.«175574_j73650099192114_1_alg».proof.Proof.Gen.ReferenceIdeal.Run
import proofs.«175574_j73650099192114_1_alg».proof.Proof.Gen.ReferenceIdeal.Read
import proofs.«175574_j73650099192114_1_alg».proof.Proof.Bridge
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end with the product of x and the dense matrix, from arguments that agree. -/
theorem algebraic : Cert.algebraic_KernelIdeal_ReferenceIdeal := by
  intro m ρ m' ρ' _ hagree
  refine ⟨fun c => Cert.KernelIdeal.Final.result m c, Cert.KernelIdeal.Final.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v19_eq, (hagree c).1, (hagree c).2.1, (hagree c).2.2]
  exact Cert.KernelIdeal.Bridge.results_eq m c

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
